-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S16384x64 : Shape := ⟨2, ![16384, 64]⟩
abbrev S8192x1 : Shape := ⟨2, ![8192, 1]⟩
abbrev S8192x16384 : Shape := ⟨2, ![8192, 16384]⟩
abbrev S64x64 : Shape := ⟨2, ![64, 64]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S8192x1 : S_.BroadcastsInDim S8192x1 (![] : Fin 0 → Fin S8192x1.rank)
  reducesTo_S8192x1_S_d0_1 : S8192x1.ReducesTo [0, 1] S_
  bcast_S_S8192x16384 : S_.BroadcastsInDim S8192x16384 (![] : Fin 0 → Fin S8192x16384.rank)
  reducesTo_S8192x16384_S_d0_1 : S8192x16384.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64x64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S8192x16384 .f32) (main_arg5 : FVec F S8192x16384 .f32) (main_arg6 : FVec F S64x64 .f32) (main_arg7 : FVec F S64 .f32) (main_arg8 : FVec F S64x64 .f32) (main_arg9 : FVec F S64 .f32) (main_v13 : IVec S_ 1) (main_v16 : IVec S8192x1 1) : IVec S_ 1 :=
  let main_c_5 : IVec S_ 1 := constantI S_ 1 1#1
  let main_v17 : IVec S_ 1 := (fun x v => Host.reduce IntOp.andi x v reducesTo_S8192x1_S_d0_1 h_S_) main_v16 main_c_5
  let main_v18 : IVec S_ 1 := andi main_v13 main_v17
  let main_v19 : FVec F S8192x16384 .f32 := Host.absf main_arg4
  let main_cst_6 : FVec F S_ .f32 := constant S_ .f32 0x7F800000#32
  let main_v20 : FVec F S8192x16384 .f32 := broadcastInDim S8192x16384 ![] bcast_S_S8192x16384 main_cst_6
  let main_v21 : IVec S8192x16384 1 := cmpf .olt main_v19 main_v20
  let main_c_7 : IVec S_ 1 := constantI S_ 1 1#1
  let main_v22 : IVec S_ 1 := (fun x v => Host.reduce IntOp.andi x v reducesTo_S8192x16384_S_d0_1 h_S_) main_v21 main_c_7
  let main_v23 : IVec S_ 1 := andi main_v18 main_v22
  let main_v24 : FVec F S8192x16384 .f32 := Host.absf main_arg5
  let main_cst_8 : FVec F S_ .f32 := constant S_ .f32 0x7F800000#32
  let main_v25 : FVec F S8192x16384 .f32 := broadcastInDim S8192x16384 ![] bcast_S_S8192x16384 main_cst_8
  let main_v26 : IVec S8192x16384 1 := cmpf .olt main_v24 main_v25
  let main_c_9 : IVec S_ 1 := constantI S_ 1 1#1
  let main_v27 : IVec S_ 1 := (fun x v => Host.reduce IntOp.andi x v reducesTo_S8192x16384_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x64 .f32) (main_arg1 : FVec F S16384x64 .f32) (main_arg2 : FVec F S8192x1 .f32) (main_arg3 : FVec F S8192x1 .f32) (main_arg4 : FVec F S8192x16384 .f32) (main_arg5 : FVec F S8192x16384 .f32) (main_arg6 : FVec F S64x64 .f32) (main_arg7 : FVec F S64 .f32) (main_arg8 : FVec F S64x64 .f32) (main_arg9 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_v14 : FVec F S8192x1 .f32 := Host.absf main_arg3
  let main_cst_4 : FVec F S_ .f32 := constant S_ .f32 0x7F800000#32
  let main_v15 : FVec F S8192x1 .f32 := broadcastInDim S8192x1 ![] bcast_S_S8192x1 main_cst_4
  let main_v16 : IVec S8192x1 1 := cmpf .olt main_v14 main_v15
  fn_part1 (F := F) main_arg4 main_arg5 main_arg6 main_arg7 main_arg8 main_arg9 main_v13 main_v16
-- ==== Kernel.lean ====
abbrev S8192x64 : Shape := ⟨2, ![8192, 64]⟩
abbrev S16384x64 : Shape := ⟨2, ![16384, 64]⟩
abbrev S8192x1 : Shape := ⟨2, ![8192, 1]⟩
abbrev S8192x16384 : Shape := ⟨2, ![8192, 16384]⟩
abbrev S64x64 : Shape := ⟨2, ![64, 64]⟩
abbrev S64 : Shape := ⟨1, ![64]⟩
abbrev S1x64 : Shape := ⟨2, ![1, 64]⟩
abbrev S1024x64 : Shape := ⟨2, ![1024, 64]⟩
abbrev S1024x2048 : Shape := ⟨2, ![1024, 2048]⟩
abbrev S2048x64 : Shape := ⟨2, ![2048, 64]⟩

abbrev nBuf : Space → Nat
  | .hbm => 15
  | .vmem => 13
  | .smem => 0
  | _ => 0

abbrev bufTy : (tb : Table) → Fin (tcTables nBuf tb) → BufTy
  | .hbm, ⟨0, _⟩ => ⟨S8192x64, .f32⟩
  | .hbm, ⟨1, _⟩ => ⟨S16384x64, .f32⟩
  | .hbm, ⟨2, _⟩ => ⟨S8192x1, .f32⟩
  | .hbm, ⟨3, _⟩ => ⟨S8192x1, .f32⟩
  | .hbm, ⟨4, _⟩ => ⟨S8192x16384, .f32⟩
  | .hbm, ⟨5, _⟩ => ⟨S8192x16384, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S1x64, .f32⟩
  | .hbm, ⟨13, _⟩ => ⟨S1x64, .f32⟩
  | .hbm, ⟨14, _⟩ => ⟨S8192x64, .f32⟩
  | .local _ .vmem, ⟨0, _⟩ => ⟨S1024x64, .f32⟩
  | .local _ .vmem, ⟨1, _⟩ => ⟨S1024x64, .f32⟩
  | .local _ .vmem, ⟨2, _⟩ => ⟨S1024x2048, .f32⟩
  | .local _ .vmem, ⟨3, _⟩ => ⟨S1024x2048, .f32⟩
  | .local _ .vmem, ⟨4, _⟩ => ⟨S2048x64, .f32⟩
  | .local _ .vmem, ⟨5, _⟩ => ⟨S2048x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S64x64_S64x64_1_0 : S64x64.Transposes [1, 0] S64x64
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  dot_S1024x2048_S2048x64_S1024x64_1_0_0_1_n_n_wf : DotDims.WF S1024x2048 S2048x64 S1024x64 [1] [0] [0] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x16384.size a
  hwx0_1 : ∀ i : grid0.Coords, EltTy.bits .f32 = 32 ∨ (Rect.block (s := S8192x16384) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S8192x64.size a
  hwx0_7 : ∀ i : grid0.Coords, EltTy.bits .f32 = 32 ∨ (Rect.block (s := S8192x64) S1024x64.size (cc0_transform_7 i) (hinb0_7 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x64 : Shape := ⟨2, ![8192, 64]⟩
abbrev S16384x64 : Shape := ⟨2, ![16384, 64]⟩
abbrev S8192x1 : Shape := ⟨2, ![8192, 1]⟩
abbrev S8192x16384 : Shape := ⟨2, ![8192, 16384]⟩
abbrev S64x64 : Shape := ⟨2, ![64, 64]⟩
abbrev S64 : Shape := ⟨1, ![64]⟩
abbrev S1x64 : Shape := ⟨2, ![1, 64]⟩

abbrev nBuf : Space → Nat
  | .hbm => 22
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S16384x64, .f32⟩
  | .hbm, ⟨2, _⟩ => ⟨S8192x1, .f32⟩
  | .hbm, ⟨3, _⟩ => ⟨S8192x1, .f32⟩
  | .hbm, ⟨4, _⟩ => ⟨S8192x16384, .f32⟩
  | .hbm, ⟨5, _⟩ => ⟨S8192x16384, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S8192x64, .f32⟩
  | .hbm, ⟨11, _⟩ => ⟨S64x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S64x64, .f32⟩
  | .hbm, ⟨17, _⟩ => ⟨S8192x64, .f32⟩
  | .hbm, ⟨18, _⟩ => ⟨S8192x64, .f32⟩
  | .hbm, ⟨19, _⟩ => ⟨S1x64, .f32⟩
  | .hbm, ⟨20, _⟩ => ⟨S8192x64, .f32⟩
  | .hbm, ⟨21, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x16384_S16384x64_S8192x64_1_0_0_1_n_n_wf : DotDims.WF S8192x16384 S16384x64 S8192x64 [1] [0] [0] [1] [] []
  dot_S8192x64_S64x64_S8192x64_1_0_0_1_n_n_wf : DotDims.WF S8192x64 S64x64 S8192x64 [1] [0] [0] [1] [] []

variable [Facts₀]

def dot_S8192x16384_S16384x64_S8192x64_1_0_0_1_n_n : DotDims S8192x16384 S16384x64 S8192x64 where
  lhsContracting := [1]
  rhsContracting := [0]
  lhsNonContracting := [0]
  rhsNonContracting := [1]
  lhsBatch := []
  rhsBatch := []
  wf := dot_S8192x16384_S16384x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

class Facts : Prop extends Facts₀ where

variable [Facts]
-- ==== Proof.LibBlockedSum.lean ====
/-
  GENERAL LEMMA (no program imported). A sum over the first `n * k` naturals taken `n` at a time: the `k` consecutive runs of length `n`
  partition `0 … n·k − 1`, so summing each run and then the runs is the one long sum. Only commutativity and
  associativity of the addition are used, so it holds in every additive commutative monoid — in particular on
  the extended reals, where no cancellation is available.
-/
import Mathlib.Algebra.BigOperators.Group.Finset.Basic
import Mathlib.Data.Fintype.BigOperators

namespace Cert.BlockedSum

open Finset

/-- Run `s` holds the naturals `n·s … n·s + n − 1`; the first `k` runs together are `0 … n·k − 1`. -/
theorem sum_range_blocks {β : Type*} [AddCommMonoid β] (n : ℕ) (f : ℕ → β) (k : ℕ) :
    ∑ s ∈ range k, ∑ p ∈ range n, f (n * s + p) = ∑ i ∈ range (n * k), f i := by
  induction k with
  | zero => simp
  | succ k ih => rw [sum_range_succ, ih, Nat.mul_succ, sum_range_add]

end Cert.BlockedSum
-- ==== Proof.Spec.lean ====
/-
  What both programs compute, entry by entry, over the extended reals.

  The inputs are x [8192, 64], y [16384, 64], pd [8192, 16384], two weight matrices wi, wy [64, 64] stored
  (output feature, input feature), and two biases bi, bo [64]. With P = pd · y, that is
  P (r, k) = Σ_j pd (r, j) · y (j, k), the result's entry (r, c) is

      ((Σ_k x (r, k) · wi (c, k) + bi c) + Σ_k P (r, k) · wy (c, k)) + bo c,

  the four summands added in exactly this grouping.

  P can also be formed 2048 columns of pd (rows of y) at a time: tile s contributes Σ_{p < 2048} pd (r, 2048 s + p) · y (2048 s + p, k),
  and the first n tiles together give the n-th partial sum. The eight tiles partition the 16384 columns, so the eighth
  partial sum is P. Only commutativity and associativity of the addition are used, so this holds on the extended
  reals with no finiteness assumption.
-/
import Idealize.ShloMosaic.PureOps.Ideal
import Idealize.ShloMosaic.Lib.ValueIdx
import proofs.«166432_j23948737643049_1_alg».proof.Proof.LibBlockedSum

noncomputable section

namespace Cert.Spec

open Idealize.ShloMosaic Idealize.ShloMosaic.ValueIdx Finset

abbrev Sx : Shape := ⟨2, ![8192, 64]⟩
abbrev Sy : Shape := ⟨2, ![16384, 64]⟩
abbrev Spd : Shape := ⟨2, ![8192, 16384]⟩
abbrev Sw : Shape := ⟨2, ![64, 64]⟩
abbrev Sb : Shape := ⟨1, ![64]⟩

section Propagation

variable (pd : Spd.Idx → EReal) (y : Sy.Idx → EReal)

/-- P (r, k): row r of pd against column k of y. -/
def prop (r : Fin 8192) (k : Fin 64) : EReal := ∑ j : Fin 16384, pd (ix2 r j) * y (ix2 j k)

/-- The j-th product of that sum, and zero past the last column. -/
def term (r : Fin 8192) (k : Fin 64) (j : ℕ) : EReal :=
  if h : j < 16384 then pd (ix2 r ⟨j, h⟩) * y (ix2 ⟨j, h⟩ k) else 0

/-- What the columns 2048 s … 2048 s + 2047 contribute. -/
def tile (s : ℕ) (r : Fin 8192) (k : Fin 64) : EReal := ∑ p ∈ range 2048, term pd y r k (2048 * s + p)

/-- The first n tiles together. -/
def partialProp (n : ℕ) (r : Fin 8192) (k : Fin 64) : EReal := ∑ s ∈ range n, tile pd y s r k

theorem partialProp_zero (r : Fin 8192) (k : Fin 64) : partialProp pd y 0 r k = 0 := sum_range_zero _

theorem partialProp_succ (n : ℕ) (r : Fin 8192) (k : Fin 64) :
    partialProp pd y (n + 1) r k = partialProp pd y n r k + tile pd y n r k := sum_range_succ _ _

/-- Tile s < 8 as a sum over its own 2048 columns. -/
theorem tile_eq (s : ℕ) (hs : s < 8) (r : Fin 8192) (k : Fin 64) :
    tile pd y s r k = ∑ q : Fin 2048, pd (ix2 r ⟨2048 * s + q.val, by have := q.isLt; omega⟩)
      * y (ix2 ⟨2048 * s + q.val, by have := q.isLt; omega⟩ k) := by
  unfold tile
  rw [Finset.sum_range]
  exact Finset.sum_congr rfl fun q _ => by unfold term; rw [dif_pos (by have := q.isLt; omega)]

/-- The eight tiles partition the columns: the eighth partial sum is P. -/
theorem partialProp_eight (r : Fin 8192) (k : Fin 64) : partialProp pd y 8 r k = prop pd y r k := by
  unfold partialProp tile prop
  rw [Cert.BlockedSum.sum_range_blocks 2048 (term pd y r k) 8]
  show ∑ i ∈ range 16384, term pd y r k i = _
  rw [Finset.sum_range]
  exact Finset.sum_congr rfl fun j _ => by unfold term; rw [dif_pos j.isLt]

end Propagation

/-- The result over a given matrix P standing for pd · y. -/
def out (x : Sx.Idx → EReal) (wi : Sw.Idx → EReal) (bi : Sb.Idx → EReal) (wy : Sw.Idx → EReal) (bo : Sb.Idx → EReal)
    (P : Fin 8192 → Fin 64 → EReal) : Sx.Idx → EReal := fun i =>
  ((∑ k : Fin 64, x (ix2 (i 0) k) * wi (ix2 (i 1) k)) + bi (ix1 (i 1)) + ∑ k : Fin 64, P (i 0) k * wy (ix2 (i 1) k))
    + bo (ix1 (i 1))

/-- The result: `out` over P = pd · y. -/
def G (x : Sx.Idx → EReal) (y : Sy.Idx → EReal) (pd : Spd.Idx → EReal) (wi : Sw.Idx → EReal) (bi : Sb.Idx → EReal)
    (wy : Sw.Idx → EReal) (bo : Sb.Idx → EReal) : Sx.Idx → EReal :=
  out x wi bi wy bo (prop pd y)

/-- Over the eighth partial sum it is the same function. -/
theorem out_partial_eight (x : Sx.Idx → EReal) (y : Sy.Idx → EReal) (pd : Spd.Idx → EReal) (wi : Sw.Idx → EReal)
    (bi : Sb.Idx → EReal) (wy : Sw.Idx → EReal) (bo : Sb.Idx → EReal) :
    out x wi bi wy bo (partialProp pd y 8) = G x y pd wi bi wy bo := by
  unfold G
  exact congrArg (out x wi bi wy bo) (funext fun r => funext fun k => partialProp_eight pd y r k)

end Cert.Spec

end
-- ==== Proof.RefSpec.lean ====
/-
  The reference's result is the specified function.

  Read one operation at a time, the reference forms pd · y, then x · wiᵀ (the transpose read as wi at the swapped
  index), adds the bias broadcast along the rows, adds (pd · y) · wyᵀ, and adds the second bias: entry (r, c) is
  ((Σ_k x (r, k) · wi (c, k) + bi c) + Σ_k (Σ_j pd (r, j) · y (j, k)) · wy (c, k)) + bo c, which is `Cert.Spec.G`.
-/
import proofs.«166432_j23948737643049_1_alg».proof.Proof.Gen.ReferenceIdeal.Read
import proofs.«166432_j23948737643049_1_alg».proof.Proof.Spec

noncomputable section

namespace Cert.RefSpec

open Cert.ReferenceIdeal Cert.ReferenceIdeal.Gen Cert.ReferenceIdeal.Read Idealize.ShloMosaic Idealize.ShloMosaic.ValueIdx

/-- The operand indices of the three products and of the two bias broadcasts, by their coordinates. -/
theorem lidx_v2 (i : S8192x64.Idx) (k : Fin 64) : lidx_main_v2 i k = ix2 (i 0) k :=
  funext fun a => by match a with | ⟨0, _⟩ => rfl | ⟨1, _⟩ => rfl
theorem ridx_v2 (i : S8192x64.Idx) (k : Fin 64) : idx_main_v1 (ridx_main_v2 i k) = ix2 (i 1) k :=
  funext fun a => by match a with | ⟨0, _⟩ => rfl | ⟨1, _⟩ => rfl
theorem lidx_v7 (i : S8192x64.Idx) (k : Fin 64) (j : Fin 16384) : lidx_main_v0 (lidx_main_v7 i k) j = ix2 (i 0) j :=
  funext fun a => by match a with | ⟨0, _⟩ => rfl | ⟨1, _⟩ => rfl
theorem ridx_v0 (i : S8192x64.Idx) (k : Fin 64) (j : Fin 16384) : ridx_main_v0 (lidx_main_v7 i k) j = ix2 j k :=
  funext fun a => by match a with | ⟨0, _⟩ => rfl | ⟨1, _⟩ => rfl
theorem ridx_v7 (i : S8192x64.Idx) (k : Fin 64) : idx_main_v6 (ridx_main_v7 i k) = ix2 (i 1) k :=
  funext fun a => by match a with | ⟨0, _⟩ => rfl | ⟨1, _⟩ => rfl
theorem bias_v4 (i : S8192x64.Idx) : idx_main_v3 (idx_main_v4 i) = ix1 (i 1) :=
  funext fun a => by match a with | ⟨0, _⟩ => rfl
theorem bias_v10 (i : S8192x64.Idx) : idx_main_v9 (idx_main_v10 i) = ix1 (i 1) :=
  funext fun a => by match a with | ⟨0, _⟩ => rfl

/-- The reference's last stage, at `Ideal`, is the specified function of the arguments. -/
theorem ref_eq (x0 : (⟨S8192x64, .f32⟩ : BufTy).Contents (Elt Ideal)) (x1 : (⟨S16384x64, .f32⟩ : BufTy).Contents (Elt Ideal))
    (x5 : (⟨S8192x16384, .f32⟩ : BufTy).Contents (Elt Ideal)) (x6 : (⟨S64x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) :
    val_main_v11 (F := Ideal) x0 x1 x5 x6 x7 x8 x9 = Cert.Spec.G x0 x1 x5 x6 x7 x8 x9 := by
  funext i
  rw [val_main_v11_apply, val_main_v8_apply, val_main_v5_apply, val_main_v2_apply, val_main_v4_apply, val_main_v3_apply,
    val_main_v7_apply, val_main_v10_apply, val_main_v9_apply]
  simp only [val_main_v1_apply, val_main_v6_apply, val_main_v0_apply, lidx_v2, ridx_v2, lidx_v7, ridx_v0, ridx_v7, bias_v4,
    bias_v10, Ideal.addf_def]
  rfl

end Cert.RefSpec

end
-- ==== Proof.Pieces.lean ====
/-
  What one run of the kernel body leaves behind, as pure terms of what it loaded.

  The body has three control cases over the reduction coordinate j of the grid point. Write A, B for the point's
  blocks of pd and y and S for what the accumulator scratch held when the body started.
    * first step (j = 0): the scratch is stored the zero block Z, read back, and stored Z + A·B;
    * middle steps (0 < j < 7): the scratch is stored S + A·B;
    * last step (j = 7): the scratch is stored S + A·B, and the output block is stored the final expression
      evaluated on the value just stored in the scratch (it is read back after the store, so it already includes
      this step's product).
  Each store covers its whole buffer, so what is left is the last payload; each load reads a whole buffer.
  `k0_pay1` is Z, `k0_pay2 A B S` is S + A·B, `k0_pay3` the final expression.
-/
import proofs.«166432_j23948737643049_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First step: the scratch ends at Z + A·B, whatever it held before. -/
theorem scratch_first (c : Dev nD) (i : grid0.Coords) (arg2 : Memref sig .tc .vmem S1024x64 .f32) (harg2 : arg2.IsWhole) (arg3 : Memref sig .tc .vmem S1024x2048 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S1024x64 .f32) (harg10 : arg10.IsWhole) (hc0 : cond0_0 i) (hc1 : ¬cond0_1 i)
    (x0 : Vec F S1024x64 .f32) (x1 : Vec F S1024x2048 .f32) (x2 : Vec F S2048x64 .f32) (x3 : Vec F S64x64 .f32) (x4 : Vec F S1x64 .f32) (x5 : Vec F S64x64 .f32) (x6 : Vec F S1x64 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 x1 x2 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1024x64) hz]
  simp only [View.readAt_eq_ld, harg2.read_unread, harg3.read_unread, harg4.read_unread, harg5.read_unread, harg6.read_unread, harg7.read_unread, harg8.read_unread, harg10.read_unread, View.ld_unit_zero (S := S1024x64) hz, View.ld_unit_zero (S := S1024x2048) hz, View.ld_unit_zero (S := S2048x64) hz, View.ld_unit_zero (S := S64x64) hz, View.ld_unit_zero (S := S1x64) hz, View.readCov_unit_zero (S := S1024x64) _ hz]

/-- Middle steps: the scratch ends at S + A·B. -/
theorem scratch_middle (c : Dev nD) (i : grid0.Coords) (arg2 : Memref sig .tc .vmem S1024x64 .f32) (harg2 : arg2.IsWhole) (arg3 : Memref sig .tc .vmem S1024x2048 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S1024x64 .f32) (harg10 : arg10.IsWhole) (hc0 : ¬cond0_0 i) (hc1 : ¬cond0_1 i)
    (x0 : Vec F S1024x64 .f32) (x1 : Vec F S1024x2048 .f32) (x2 : Vec F S2048x64 .f32) (x3 : Vec F S64x64 .f32) (x4 : Vec F S1x64 .f32) (x5 : Vec F S64x64 .f32) (x6 : Vec F S1x64 .f32) (xs0 : Vec F S1024x64 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay2 x1 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, View.ld_unit_zero (S := S1024x64) hz, View.ld_unit_zero (S := S1024x2048) hz, View.ld_unit_zero (S := S2048x64) hz, View.ld_unit_zero (S := S64x64) hz, View.ld_unit_zero (S := S1x64) hz]

/-- Last step: the scratch ends at S + A·B as well. -/
theorem scratch_last (c : Dev nD) (i : grid0.Coords) (arg2 : Memref sig .tc .vmem S1024x64 .f32) (harg2 : arg2.IsWhole) (arg3 : Memref sig .tc .vmem S1024x2048 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S1024x64 .f32) (harg10 : arg10.IsWhole) (hc0 : ¬cond0_0 i) (hc1 : cond0_1 i)
    (x0 : Vec F S1024x64 .f32) (x1 : Vec F S1024x2048 .f32) (x2 : Vec F S2048x64 .f32) (x3 : Vec F S64x64 .f32) (x4 : Vec F S1x64 .f32) (x5 : Vec F S64x64 .f32) (x6 : Vec F S1x64 .f32) (xs0 : Vec F S1024x64 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 x1 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, View.ld_unit_zero (S := S1024x64) hz, View.ld_unit_zero (S := S1024x2048) hz, View.ld_unit_zero (S := S2048x64) hz, View.ld_unit_zero (S := S64x64) hz, View.ld_unit_zero (S := S1x64) hz]

/-- Last step: the output block ends at the final expression over the x block, the two weight blocks, the two bias
    rows and the scratch's new value S + A·B. -/
theorem out_last (c : Dev nD) (i : grid0.Coords) (arg2 : Memref sig .tc .vmem S1024x64 .f32) (harg2 : arg2.IsWhole) (arg3 : Memref sig .tc .vmem S1024x2048 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S1024x64 .f32) (harg10 : arg10.IsWhole) (hc0 : ¬cond0_0 i) (hc1 : cond0_1 i)
    (x0 : Vec F S1024x64 .f32) (x1 : Vec F S1024x2048 .f32) (x2 : Vec F S2048x64 .f32) (x3 : Vec F S64x64 .f32) (x4 : Vec F S1x64 .f32) (x5 : Vec F S64x64 .f32) (x6 : Vec F S1x64 .f32) (xs0 : Vec F S1024x64 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 x0 x3 x5 (k0_pay2 x1 x2 xs0) x4 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, View.ld_unit_zero (S := S1024x64) hz, View.ld_unit_zero (S := S1024x2048) hz, View.ld_unit_zero (S := S2048x64) hz, View.ld_unit_zero (S := S64x64) hz, View.ld_unit_zero (S := S1x64) hz, View.readCov_unit_zero (S := S1024x64) _ hz]

end Cert.KernelIdeal.Pieces

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.Payload.lean ====
/-
  The body's three stored values read at an entry, over the extended reals.

  A change of float format is the identity there, a matrix product into the zero accumulator is the plain sum of
  products over the contracted coordinate, and a [1, 64] row broadcast down 1024 rows reads the row at the entry's column.
    * the zero block is 0 everywhere;
    * the accumulator's new value at (p, k) is S (p, k) + Σ_q A (p, q) · B (q, k);
    * the output block at (p, c) is ((Σ_k X (p, k) · Wi (k, c) + bi (0, c)) + Σ_k T (p, k) · Wy (k, c)) + bo (0, c),
      with X the x block, Wi and Wy the two (already transposed) weight blocks, T the accumulator's value and bi, bo the
      bias rows — the same grouping of the four summands as the expression the kernel evaluates.
-/
import proofs.«166432_j23948737643049_1_alg».proof.Proof.Gen.KernelIdeal.Skeleton
import proofs.«166432_j23948737643049_1_alg».proof.Proof.LibPlainMatmul
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The zero block. -/
theorem zero_apply (j : S1024x64.Idx) : k0_pay1 (F := Ideal) j = 0 := by
  unfold k0_pay1
  simp only [shapeCast_self]
  exact Ideal.ofBits_zero_f32

/-- The accumulator's new value: what it held plus this step's product. -/
theorem acc_apply (A : Vec Ideal S1024x2048 .f32) (B : Vec Ideal S2048x64 .f32) (S : Vec Ideal S1024x64 .f32)
    (p : Fin 1024) (k : Fin 64) :
    k0_pay2 (F := Ideal) A B S (ix2 p k) = S (ix2 p k) + ∑ q : Fin 2048, A (ix2 p q) * B (ix2 q k) := by
  unfold k0_pay2
  simp only [shapeCast_self]
  exact congrArg (S (ix2 p k) + ·)
    (Cert.PlainMatmul.apply (M := 1024) (K := 2048) (N := 64) none (truncf .bf16 A _) (truncf .bf16 B _) p k)

/-- A bias row broadcast down the rows reads the row at the entry's column. -/
theorem row_broadcast_apply (v : Vec Ideal S1x64 .f32) (h : S1x64.Broadcasts S1024x64) (p : Fin 1024) (c : Fin 64) :
    broadcastTo S1024x64 v h (ix2 p c) = v (ix2 0 c) :=
  broadcastTo_apply v h (ix2 p c) (ix2 0 c) fun a => by
    match a with
    | ⟨0, _⟩ => rfl
    | ⟨1, _⟩ => rfl

/-- The output block's value. -/
theorem out_apply (X T : Vec Ideal S1024x64 .f32) (Wi Wy : Vec Ideal S64x64 .f32) (bi bo : Vec Ideal S1x64 .f32)
    (p : Fin 1024) (c : Fin 64) :
    k0_pay3 (F := Ideal) X Wi Wy T bi bo (ix2 p c)
      = ((∑ k : Fin 64, X (ix2 p k) * Wi (ix2 k c)) + bi (ix2 0 c) + ∑ k : Fin 64, T (ix2 p k) * Wy (ix2 k c))
        + bo (ix2 0 c) := by
  unfold k0_pay3
  simp only [shapeCast_self]
  exact congrArg₂ (· + ·)
    (congrArg₂ (· + ·)
      (congrArg₂ (· + ·)
        (Cert.PlainMatmul.apply (M := 1024) (K := 64) (N := 64) none (truncf .bf16 X _) (truncf .bf16 Wi _) p c)
        (row_broadcast_apply bi _ p c))
      (Cert.PlainMatmul.apply (M := 1024) (K := 64) (N := 64) none (truncf .bf16 T _) (truncf .bf16 Wy _) p c))
    (row_broadcast_apply bo _ p c)

end Cert.KernelIdeal.Payload

end
-- ==== Proof.InputBlocks.lean ====
/-
  What each input block holds, in terms of the argument arrays.

  The grid has 64 points; point t has row coordinate t / 8 and reduction coordinate t % 8. At point t
    * the x block is rows 1024 (t / 8) … of x;
    * the pd block is those rows and columns 2048 (t % 8) … of pd;
    * the y block is rows 2048 (t % 8) … of y;
    * the two weight blocks are the whole transposed weight matrices, so their entry (k, c) is the weight's (c, k);
    * the two bias blocks are the biases laid out as one row, so their entry (0, c) is the bias's c.
-/
import proofs.«166432_j23948737643049_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.InputBlocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

theorem lt64 (t : Fin cfg0.N) : t.val < 64 := lt_of_lt_of_eq t.isLt N_0

/-! ## The argument arrays and the blocks, at their literal types -/

abbrev argX (c : Dev nD) : Vec Ideal S8192x64 .f32 := m ((c : Thread nD τ).loc main_arg0)
abbrev argY (c : Dev nD) : Vec Ideal S16384x64 .f32 := m ((c : Thread nD τ).loc main_arg1)
abbrev argPd (c : Dev nD) : Vec Ideal S8192x16384 .f32 := m ((c : Thread nD τ).loc main_arg5)
abbrev argWi (c : Dev nD) : Vec Ideal S64x64 .f32 := m ((c : Thread nD τ).loc main_arg6)
abbrev argBi (c : Dev nD) : Vec Ideal S64 .f32 := m ((c : Thread nD τ).loc main_arg7)
abbrev argWy (c : Dev nD) : Vec Ideal S64x64 .f32 := m ((c : Thread nD τ).loc main_arg8)
abbrev argBo (c : Dev nD) : Vec Ideal S64 .f32 := m ((c : Thread nD τ).loc main_arg9)

abbrev xblk (c : Dev nD) (t : Fin cfg0.N) : Vec Ideal S1024x64 .f32 := iblk m c 0 t
abbrev pdblk (c : Dev nD) (t : Fin cfg0.N) : Vec Ideal S1024x2048 .f32 := iblk m c 1 t
abbrev yblk (c : Dev nD) (t : Fin cfg0.N) : Vec Ideal S2048x64 .f32 := iblk m c 2 t
abbrev wiblk (c : Dev nD) (t : Fin cfg0.N) : Vec Ideal S64x64 .f32 := iblk m c 3 t
abbrev biblk (c : Dev nD) (t : Fin cfg0.N) : Vec Ideal S1x64 .f32 := iblk m c 4 t
abbrev wyblk (c : Dev nD) (t : Fin cfg0.N) : Vec Ideal S64x64 .f32 := iblk m c 5 t
abbrev boblk (c : Dev nD) (t : Fin cfg0.N) : Vec Ideal S1x64 .f32 := iblk m c 6 t

/-- Row p of the row block of point t, and column q of reduction tile s, as positions in the arrays. -/
abbrev rowOf (t : Fin cfg0.N) (p : Fin 1024) : Fin 8192 :=
  ⟨1024 * (t.val / 8) + p.val, by have := lt64 t; have := p.isLt; omega⟩
abbrev colOf (s : ℕ) (hs : s < 8) (q : Fin 2048) : Fin 16384 := ⟨2048 * s + q.val, by have := q.isLt; omega⟩

/-! ## The block index maps, decided once over the grid -/

theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx1 : ∀ t : Fin cfg0.N, win0_1.index t (0 : Fin 2) = t.val / 8 ∧ win0_1.index t (1 : Fin 2) = t.val % 8 :=
  (by decide +kernel : ∀ t : Fin grid0.N, win0_1.index t (0 : Fin 2) = t.val / 8 ∧ win0_1.index t (1 : Fin 2) = t.val % 8)
theorem idx2 : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = t.val / 8 ∧ win0_7.index t (1 : Fin 2) = 0 :=
  (by decide +kernel : ∀ t : Fin grid0.N, win0_7.index t (0 : Fin 2) = t.val / 8 ∧ win0_7.index t (1 : Fin 2) = 0)

/-! ## The arrays the host wrote before the region -/

theorem wiT_eq (c : Dev nD) :
    (V m c main_v0 : S64x64.Idx → EReal) = transpose S64x64 [1, 0] (argWi m c) transposes_S64x64_S64x64_1_0 := by
  dsimp only [V, hostOps0]; after_results
theorem wyT_eq (c : Dev nD) :
    (V m c main_v1 : S64x64.Idx → EReal) = transpose S64x64 [1, 0] (argWy m c) transposes_S64x64_S64x64_1_0 := by
  dsimp only [V, hostOps0]; after_results
theorem biRow_eq (c : Dev nD) :
    (V m c main_v2 : S1x64.Idx → EReal) = shapeCast S1x64 (argBi m c) shapeCasts_S64_S1x64 := by
  dsimp only [V, hostOps0]; after_results; rfl
theorem boRow_eq (c : Dev nD) :
    (V m c main_v3 : S1x64.Idx → EReal) = shapeCast S1x64 (argBo m c) shapeCasts_S64_S1x64 := by
  dsimp only [V, hostOps0]; after_results; rfl

/-! ## The blocks read at an entry -/

theorem xblk_apply (c : Dev nD) (t : Fin cfg0.N) (p : Fin 1024) (k : Fin 64) :
    xblk m c t (ix2 p k) = argX m c (ix2 (rowOf t p) k) := by
  have hi := idx0 t
  show ((cfg0.win 0).blk t).view.read (Elt Ideal) (V m c (Pipeline.arrRef spec0 0)) (ix2 p k) = _
  rw [View.read_apply]
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t 0 * 1024 + 1 * p.val = 1024 * (t.val / 8) + p.val; rw [hi.1]; omega
  | ⟨1, _⟩ => show win0_0.index t 1 * 64 + 1 * k.val = k.val; rw [hi.2]; omega

theorem pdblk_apply (c : Dev nD) (t : Fin cfg0.N) (p : Fin 1024) (q : Fin 2048) :
    pdblk m c t (ix2 p q) = argPd m c (ix2 (rowOf t p) (colOf (t.val % 8) (Nat.mod_lt _ (by decide)) q)) := by
  have hi := idx1 t
  show ((cfg0.win 1).blk t).view.read (Elt Ideal) (V m c (Pipeline.arrRef spec0 1)) (ix2 p q) = _
  rw [View.read_apply]
  show V m c main_arg5 (((cfg0.win 1).blk t).view.emb (ix2 p q)) = _
  rw [V_main_arg5]
  refine congrArg (m ((c : Thread nD τ).loc main_arg5)) (funext fun a => Fin.ext ?_)
  match a with
  | ⟨0, _⟩ => show win0_1.index t 0 * 1024 + 1 * p.val = 1024 * (t.val / 8) + p.val; rw [hi.1]; omega
  | ⟨1, _⟩ => show win0_1.index t 1 * 2048 + 1 * q.val = 2048 * (t.val % 8) + q.val; rw [hi.2]; omega

theorem yblk_apply (c : Dev nD) (t : Fin cfg0.N) (q : Fin 2048) (k : Fin 64) :
    yblk m c t (ix2 q k) = argY m c (ix2 (colOf (t.val % 8) (Nat.mod_lt _ (by decide)) q) k) := by
  have hi := idx2 t
  show ((cfg0.win 2).blk t).view.read (Elt Ideal) (V m c (Pipeline.arrRef spec0 2)) (ix2 q k) = _
  rw [View.read_apply]
  show V m c main_arg1 (((cfg0.win 2).blk t).view.emb (ix2 q k)) = _
  rw [V_main_arg1]
  refine congrArg (m ((c : Thread nD τ).loc main_arg1)) (funext fun a => Fin.ext ?_)
  match a with
  | ⟨0, _⟩ => show win0_2.index t 0 * 2048 + 1 * q.val = 2048 * (t.val % 8) + q.val; rw [hi.1]; omega
  | ⟨1, _⟩ => show win0_2.index t 1 * 64 + 1 * k.val = k.val; rw [hi.2]; omega

theorem wiblk_apply (c : Dev nD) (t : Fin cfg0.N) (k : Fin 64) (o : Fin 64) :
    wiblk m c t (ix2 k o) = argWi m c (ix2 o k) := by
  have hi := idx3 t
  show ((cfg0.win 3).blk t).view.read (Elt Ideal) (V m c (Pipeline.arrRef spec0 3)) (ix2 k o) = _
  rw [View.read_apply]
  show V m c main_v0 (((cfg0.win 3).blk t).view.emb (ix2 k o)) = _
  rw [wiT_eq]
  refine transpose_apply [1, 0] (argWi m c) transposes_S64x64_S64x64_1_0 _ (ix2 o k) fun b => ?_
  match b with
  | ⟨0, _⟩ => show k.val = win0_3.index t 0 * 64 + 1 * k.val; rw [hi.1]; omega
  | ⟨1, _⟩ => show o.val = win0_3.index t 1 * 64 + 1 * o.val; rw [hi.2]; omega

theorem wyblk_apply (c : Dev nD) (t : Fin cfg0.N) (k : Fin 64) (o : Fin 64) :
    wyblk m c t (ix2 k o) = argWy m c (ix2 o k) := by
  have hi := idx5 t
  show ((cfg0.win 5).blk t).view.read (Elt Ideal) (V m c (Pipeline.arrRef spec0 5)) (ix2 k o) = _
  rw [View.read_apply]
  show V m c main_v1 (((cfg0.win 5).blk t).view.emb (ix2 k o)) = _
  rw [wyT_eq]
  refine transpose_apply [1, 0] (argWy m c) transposes_S64x64_S64x64_1_0 _ (ix2 o k) fun b => ?_
  match b with
  | ⟨0, _⟩ => show k.val = win0_5.index t 0 * 64 + 1 * k.val; rw [hi.1]; omega
  | ⟨1, _⟩ => show o.val = win0_5.index t 1 * 64 + 1 * o.val; rw [hi.2]; omega

theorem biblk_apply (c : Dev nD) (t : Fin cfg0.N) (o : Fin 64) :
    biblk m c t (ix2 0 o) = argBi m c (ix1 o) := by
  have hi := idx4 t
  show ((cfg0.win 4).blk t).view.read (Elt Ideal) (V m c (Pipeline.arrRef spec0 4)) (ix2 0 o) = _
  rw [View.read_apply]
  show V m c main_v2 (((cfg0.win 4).blk t).view.emb (ix2 0 o)) = _
  rw [biRow_eq]
  refine shapeCast_apply (argBi m c) shapeCasts_S64_S1x64 _ (ix1 o) ?_
  rw [Shape.rowMajor_val_one, Shape.rowMajor_val_two]
  show o.val = (win0_4.index t 0 * 1 + 1 * 0) * 64 + (win0_4.index t 1 * 64 + 1 * o.val)
  rw [hi.1, hi.2]; omega

theorem boblk_apply (c : Dev nD) (t : Fin cfg0.N) (o : Fin 64) :
    boblk m c t (ix2 0 o) = argBo m c (ix1 o) := by
  have hi := idx6 t
  show ((cfg0.win 6).blk t).view.read (Elt Ideal) (V m c (Pipeline.arrRef spec0 6)) (ix2 0 o) = _
  rw [View.read_apply]
  show V m c main_v3 (((cfg0.win 6).blk t).view.emb (ix2 0 o)) = _
  rw [boRow_eq]
  refine shapeCast_apply (argBo m c) shapeCasts_S64_S1x64 _ (ix1 o) ?_
  rw [Shape.rowMajor_val_one, Shape.rowMajor_val_two]
  show o.val = (win0_6.index t 0 * 1 + 1 * 0) * 64 + (win0_6.index t 1 * 64 + 1 * o.val)
  rw [hi.1, hi.2]; omega

end Cert.KernelIdeal.InputBlocks

end
-- ==== Proof.Accum.lean ====
/-
  The accumulation over the grid.

  Fix a row block (t / 8 constant) and let the reduction coordinate t % 8 run from 0 to 7. The accumulator scratch is
  zeroed and given tile 0 at the first step and gains tile (t % 8) at each later step, so after point t it holds, at
  (p, k), the first t % 8 + 1 tiles of P = pd · y on row 1024 (t / 8) + p: by induction on the point, the step from
  t - 1 to t staying inside the row block whenever t % 8 ≠ 0. At the last step (t % 8 = 7) that is all eight tiles, and
  the output block is the final expression over them.
-/
import proofs.«166432_j23948737643049_1_alg».proof.Proof.Gen.KernelIdeal.Value
import proofs.«166432_j23948737643049_1_alg».proof.Proof.Pieces
import proofs.«166432_j23948737643049_1_alg».proof.Proof.Payload
import proofs.«166432_j23948737643049_1_alg».proof.Proof.InputBlocks
import proofs.«166432_j23948737643049_1_alg».proof.Proof.Spec

noncomputable section

namespace Cert.KernelIdeal.Accum

open Cert.KernelIdeal Cert.KernelIdeal.Gen Cert.KernelIdeal.InputBlocks Idealize.ShloMosaic Idealize.ShloMosaic.TcCoe
open Idealize.SL.Sem Idealize.ShloMosaic.ValueIdx

variable (m : (ℓ : Loc nD τ sig) → Buf (Elt Ideal) ℓ)

/-- This step's product at (p, k) is tile t % 8 of P on the block's row p. -/
theorem step_product (c : Dev nD) (t : Fin cfg0.N) (p : Fin 1024) (k : Fin 64) :
    ∑ q : Fin 2048, pdblk m c t (ix2 p q) * yblk m c t (ix2 q k)
      = Cert.Spec.tile (argPd m c) (argY m c) (t.val % 8) (rowOf t p) k := by
  rw [Cert.Spec.tile_eq (argPd m c) (argY m c) (t.val % 8) (Nat.mod_lt _ (by decide)) (rowOf t p) k]
  exact Finset.sum_congr rfl fun q _ => by rw [pdblk_apply m c t p q, yblk_apply m c t q k]

/-- One accumulation step: if the scratch held the partial sum after the point before, in the same row block, its new
    value is the partial sum after this point. -/
theorem acc_step (c : Dev nD) (t tp : Fin cfg0.N) (h0 : ¬t.val % 8 = 0) (htp : tp.val + 1 = t.val)
    (S : Vec Ideal S1024x64 .f32)
    (hS : ∀ (p : Fin 1024) (k : Fin 64),
      S (ix2 p k) = Cert.Spec.partialProp (argPd m c) (argY m c) (tp.val % 8 + 1) (rowOf tp p) k)
    (p : Fin 1024) (k : Fin 64) :
    k0_pay2 (F := Ideal) (pdblk m c t) (yblk m c t) S (ix2 p k)
      = Cert.Spec.partialProp (argPd m c) (argY m c) (t.val % 8 + 1) (rowOf t p) k := by
  refine (Payload.acc_apply (pdblk m c t) (yblk m c t) S p k).trans ?_
  rw [step_product m c t p k, Cert.Spec.partialProp_succ, hS p k]
  have hrow : rowOf tp p = rowOf t p :=
    Fin.ext (by show 1024 * (tp.val / 8) + p.val = 1024 * (t.val / 8) + p.val; omega)
  have hcnt : tp.val % 8 + 1 = t.val % 8 := by omega
  rw [hcnt, hrow]

/-- THE INVARIANT: after point n the scratch holds the first n % 8 + 1 tiles of P on the row block's rows. -/
theorem scratch_eq (c : Dev nD) : ∀ (n : ℕ) (h : n < cfg0.N) (p : Fin 1024) (k : Fin 64),
    (outsAt0 m c n h).2 (ix2 p k)
      = Cert.Spec.partialProp (argPd m c) (argY m c) (n % 8 + 1) (rowOf ⟨n, h⟩ p) k := by
  intro n
  induction n with
  | zero =>
    intro h p k
    rw [outsAt0_A m c ⟨0, h⟩ rfl (show ¬(0 % 8 = 7) by decide)]
    dsimp only
    refine (congrFun (Pieces.scratch_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _)
      ((hcond0_0 ⟨0, h⟩).mpr rfl) (fun hh => absurd ((hcond0_1 ⟨0, h⟩).mp hh) (show ¬(0 % 8 = 7) by decide))
      (xblk m c ⟨0, h⟩) (pdblk m c ⟨0, h⟩) (yblk m c ⟨0, h⟩) (wiblk m c ⟨0, h⟩) (biblk m c ⟨0, h⟩) (wyblk m c ⟨0, h⟩) (boblk m c ⟨0, h⟩)) (ix2 p k)).trans ?_
    refine (Payload.acc_apply (pdblk m c ⟨0, h⟩) (yblk m c ⟨0, h⟩) (k0_pay1 (F := Ideal)) p k).trans ?_
    rw [Payload.zero_apply, step_product m c ⟨0, h⟩ p k, Cert.Spec.partialProp_succ, Cert.Spec.partialProp_zero]
  | succ n ih =>
    intro h p k
    have hN : n + 1 < 64 := lt_of_lt_of_eq h N_0
    by_cases h0 : (n + 1) % 8 = 0
    · have h1 : ¬(n + 1) % 8 = 7 := by omega
      rw [outsAt0_A m c ⟨n + 1, h⟩ h0 h1]
      dsimp only
      refine (congrFun (Pieces.scratch_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _)
        ((hcond0_0 ⟨n + 1, h⟩).mpr h0) (fun hh => h1 ((hcond0_1 ⟨n + 1, h⟩).mp hh))
        (xblk m c ⟨n + 1, h⟩) (pdblk m c ⟨n + 1, h⟩) (yblk m c ⟨n + 1, h⟩) (wiblk m c ⟨n + 1, h⟩) (biblk m c ⟨n + 1, h⟩) (wyblk m c ⟨n + 1, h⟩) (boblk m c ⟨n + 1, h⟩)) (ix2 p k)).trans ?_
      refine (Payload.acc_apply (pdblk m c ⟨n + 1, h⟩) (yblk m c ⟨n + 1, h⟩) (k0_pay1 (F := Ideal)) p k).trans ?_
      rw [Payload.zero_apply, step_product m c ⟨n + 1, h⟩ p k, Cert.Spec.partialProp_succ]
      have hz : Cert.Spec.partialProp (argPd m c) (argY m c) ((n + 1) % 8) (rowOf ⟨n + 1, h⟩ p) k = 0 := by
        rw [h0]; exact Cert.Spec.partialProp_zero _ _ _ _
      rw [hz]
    · by_cases h1 : (n + 1) % 8 = 7
      · rw [outsAt0_C m c ⟨n + 1, h⟩ h0 h1]
        dsimp only
        refine (congrFun (Pieces.scratch_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _)
          (fun hh => h0 ((hcond0_0 ⟨n + 1, h⟩).mp hh)) ((hcond0_1 ⟨n + 1, h⟩).mpr h1)
          (xblk m c ⟨n + 1, h⟩) (pdblk m c ⟨n + 1, h⟩) (yblk m c ⟨n + 1, h⟩) (wiblk m c ⟨n + 1, h⟩) (biblk m c ⟨n + 1, h⟩) (wyblk m c ⟨n + 1, h⟩) (boblk m c ⟨n + 1, h⟩) (outsAt0 m c n (Nat.lt_of_succ_lt h)).2) (ix2 p k)).trans ?_
        exact acc_step m c ⟨n + 1, h⟩ ⟨n, Nat.lt_of_succ_lt h⟩ h0 rfl _ (fun p k => ih (Nat.lt_of_succ_lt h) p k) p k
      · rw [outsAt0_B m c ⟨n + 1, h⟩ h0 h1]
        dsimp only
        refine (congrFun (Pieces.scratch_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _)
          (fun hh => h0 ((hcond0_0 ⟨n + 1, h⟩).mp hh)) (fun hh => h1 ((hcond0_1 ⟨n + 1, h⟩).mp hh))
          (xblk m c ⟨n + 1, h⟩) (pdblk m c ⟨n + 1, h⟩) (yblk m c ⟨n + 1, h⟩) (wiblk m c ⟨n + 1, h⟩) (biblk m c ⟨n + 1, h⟩) (wyblk m c ⟨n + 1, h⟩) (boblk m c ⟨n + 1, h⟩) (outsAt0 m c n (Nat.lt_of_succ_lt h)).2) (ix2 p k)).trans ?_
        exact acc_step m c ⟨n + 1, h⟩ ⟨n, Nat.lt_of_succ_lt h⟩ h0 rfl _ (fun p k => ih (Nat.lt_of_succ_lt h) p k) p k

/-- THE OUTPUT BLOCK at a last reduction step: the final expression over all eight tiles, on the row block's rows. -/
theorem out_eq (c : Dev nD) (t : Fin cfg0.N) (h1 : t.val % 8 = 7) (j : S1024x64.Idx) :
    (outsAt0 m c t.val t.isLt).1 j
      = Cert.Spec.out (argX m c) (argWi m c) (argBi m c) (argWy m c) (argBo m c)
          (Cert.Spec.partialProp (argPd m c) (argY m c) 8) (ix2 (rowOf t (j 0)) (j 1)) := by
  obtain ⟨p, o, rfl⟩ : ∃ (p : Fin 1024) (o : Fin 64), j = ix2 p o := ⟨j 0, j 1, eq_ix2 j⟩
  have h0 : ¬t.val % 8 = 0 := by omega
  have hpos : 0 < t.val := by omega
  have hlt : t.val - 1 < cfg0.N := Nat.lt_of_le_of_lt (Nat.sub_le _ _) t.isLt
  rw [outsAt0_C m c t h0 h1]
  dsimp only
  refine (congrFun (Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (fun hh => h0 ((hcond0_0 t).mp hh)) ((hcond0_1 t).mpr h1)
    (xblk m c t) (pdblk m c t) (yblk m c t) (wiblk m c t) (biblk m c t) (wyblk m c t) (boblk m c t) (outsAt0 m c (t.val - 1) hlt).2) (ix2 p o)).trans ?_
  refine (Payload.out_apply (xblk m c t) (k0_pay2 (F := Ideal) (pdblk m c t) (yblk m c t) (outsAt0 m c (t.val - 1) hlt).2)
    (wiblk m c t) (wyblk m c t) (biblk m c t) (boblk m c t) p o).trans ?_
  have hT : ∀ k : Fin 64, k0_pay2 (F := Ideal) (pdblk m c t) (yblk m c t) (outsAt0 m c (t.val - 1) hlt).2 (ix2 p k)
      = Cert.Spec.partialProp (argPd m c) (argY m c) 8 (rowOf t p) k := fun k => by
    have e := acc_step m c t ⟨t.val - 1, hlt⟩ h0 (Nat.sub_add_cancel hpos) (outsAt0 m c (t.val - 1) hlt).2
      (fun p k => scratch_eq m c (t.val - 1) hlt p k) p k
    rw [h1] at e
    exact e
  unfold Cert.Spec.out
  simp only [hT, xblk_apply m c t, wiblk_apply m c t, wyblk_apply m c t, biblk_apply m c t, boblk_apply m c t]

end Cert.KernelIdeal.Accum

end
-- ==== Proof.Final.lean ====
/-
  From blocks to the array.

  The output's block index is the row coordinate t / 8 alone, so a block is written back once per row block, at its
  last reduction step (t % 8 = 7), holding there the specified function's rows 1024 (t / 8) … 1024 (t / 8) + 1023.
  Row r of the array lies in the block written back at point 8 (r / 1024) + 7, so those eight blocks cover the
  array, and after the run it is the specified function of the arguments.
-/
import proofs.«166432_j23948737643049_1_alg».proof.Proof.Accum

noncomputable section

namespace Cert.KernelIdeal.Final

open Cert.KernelIdeal Cert.KernelIdeal.Gen Cert.KernelIdeal.InputBlocks Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-- The result array's contents after the run: the specified function of the arguments. -/
abbrev result (c : Dev nD) : Buf (Elt Ideal) ((c : Thread nD τ).loc main_v4) :=
  Cert.Spec.G (argX m c) (argY m c) (argPd m c) (argWi m c) (argBi m c) (argWy m c) (argBo m c)

/-- What a flushing point writes back is its block of the result. -/
theorem flushed_eq (c : Dev nD) (t : Fin cfg0.N) (hf : (cfg0.win 7).flush t = true) :
    (dats m 0 c).flushed 7 t = ((cfg0.win 7).blk t).view.read (Elt Ideal) (result m c) := by
  have h1 : t.val % 8 = 7 := (flush0_7 t).mp hf
  have hi := idx7 t
  rw [Value.flushed7]
  funext j
  show (outsAt0 m c t.val t.isLt).1 j = result m c (((cfg0.win 7).blk t).view.emb j)
  refine (Accum.out_eq m c t h1 j).trans ?_
  rw [Cert.Spec.out_partial_eight]
  show Cert.Spec.G (argX m c) (argY m c) (argPd m c) (argWi m c) (argBi m c) (argWy m c) (argBo m c) _
    = Cert.Spec.G (argX m c) (argY m c) (argPd m c) (argWi m c) (argBi m c) (argWy m c) (argBo m c) _
  refine congrArg _ (funext fun a => Fin.ext ?_)
  match a with
  | ⟨0, _⟩ => show 1024 * (t.val / 8) + (j 0).val = win0_7.index t 0 * 1024 + 1 * (j 0).val; rw [hi.1]; omega
  | ⟨1, _⟩ => show (j 1).val = win0_7.index t 1 * 64 + 1 * (j 1).val; rw [hi.2]; omega

/-- Every entry of the array lies in the block some flushing point writes back. -/
theorem cover (i : S8192x64.Idx) :
    ∃ t : Fin cfg0.N, (cfg0.win 7).flush t = true ∧ i ∈ ((cfg0.win 7).blk t).view.set := by
  have hi0 : (i 0).val < 8192 := idx2_lt0 i
  have hi1 : (i 1).val < 64 := idx2_lt1 i
  have hN : cfg0.N = 64 := N_0
  obtain ⟨t, ht⟩ : ∃ t : Fin cfg0.N, t.val = 8 * ((i 0).val / 1024) + 7 :=
    ⟨⟨8 * ((i 0).val / 1024) + 7, by rw [hN]; omega⟩, rfl⟩
  have hx := idx7 t
  refine ⟨t, (flush0_7 t).mpr (by omega), ?_⟩
  show i ∈ ((View.whole main_v4).slice (win0_7.rect t)).set
  rw [View.set_slice_whole, Rect.mem_set_unit]
  intro a
  match a with
  | ⟨0, _⟩ =>
    show win0_7.index t 0 * 1024 ≤ (i 0).val ∧ (i 0).val < win0_7.index t 0 * 1024 + 1024
    rw [hx.1]; omega
  | ⟨1, _⟩ =>
    show win0_7.index t 1 * 64 ≤ (i 1).val ∧ (i 1).val < win0_7.index t 1 * 64 + 64
    rw [hx.2]; omega

/-- The result array after the run. -/
theorem final (c : Dev nD) : (dats m 0 c).arrAt 7 cfg0.N = result m c :=
  (dats m 0 c).arrAt_eq_of_cover 7 (result m c) (flushed_eq m c) (cover)

/-- The kernel's run, read: the result array at the specified function of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Final

end
-- ==== Proof.lean ====
/-
  A graph-propagation layer, out = x · wiᵀ + bi + (pd · y) · wyᵀ + bo, as one fused kernel against its plain reference.

  The kernel walks a grid of 8 row blocks by 8 reduction tiles. For a row block it accumulates pd · y a tile of 2048
  columns of pd (rows of y) at a time into a scratch buffer, zeroed at the first tile, and at the last tile evaluates
  ((x · wiᵀ + bi) + acc · wyᵀ) + bo on the block's rows. The reference forms pd · y whole and evaluates the same
  expression with the same grouping of its four summands. Over the extended reals a change of float format is the
  identity and a matrix product is the plain sum of products, so the two differ only in how the sum over the 16384
  columns is bracketed: eight consecutive runs of 2048 against one run. Addition there is commutative and
  associative, so the two are equal; no finiteness of the inputs is used.

  The frames of the two kernel programs are the generated ones; the reference's frame is its generated run with the
  result dropped; the idealization rewrote nothing, so its preservation claim is trivial. The value claim sets the
  kernel's run (Final.lean: the result array is the specified function of the arguments) beside the reference's run
  (RefSpec.lean: its last stage is the same function) on arguments that agree.
-/
import proofs.«166432_j23948737643049_1_alg».proof.Defs
import proofs.«166432_j23948737643049_1_alg».proof.Proof.Gen.Kernel
import proofs.«166432_j23948737643049_1_alg».proof.Proof.Gen.Kernel.Skeleton
import proofs.«166432_j23948737643049_1_alg».proof.Proof.Gen.Kernel.Launch
import proofs.«166432_j23948737643049_1_alg».proof.Proof.Gen.Kernel.Points
import proofs.«166432_j23948737643049_1_alg».proof.Proof.Gen.Kernel.Frame
import proofs.«166432_j23948737643049_1_alg».proof.Proof.Gen.KernelIdeal
import proofs.«166432_j23948737643049_1_alg».proof.Proof.Gen.KernelIdeal.Skeleton
import proofs.«166432_j23948737643049_1_alg».proof.Proof.Gen.KernelIdeal.Launch
import proofs.«166432_j23948737643049_1_alg».proof.Proof.Gen.KernelIdeal.Points
import proofs.«166432_j23948737643049_1_alg».proof.Proof.Gen.KernelIdeal.Frame
import proofs.«166432_j23948737643049_1_alg».proof.Proof.Gen.ReferenceIdeal
import proofs.«166432_j23948737643049_1_alg».proof.Proof.Gen.Pre_finite_inputs
import proofs.«166432_j23948737643049_1_alg».proof.Proof.Gen.KernelIdeal.Value
import proofs.«166432_j23948737643049_1_alg».proof.Proof.Gen.ReferenceIdeal.Run
import proofs.«166432_j23948737643049_1_alg».proof.Proof.Gen.ReferenceIdeal.Read
import proofs.«166432_j23948737643049_1_alg».proof.Proof.RefSpec
import proofs.«166432_j23948737643049_1_alg».proof.Proof.Final
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specified function of their arguments, and the arguments agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, _, _, _, e5, e6, e7, e8, e9⟩ := hagree c
  rw [Cert.ReferenceIdeal.Read.val_main_v11_eq, Cert.RefSpec.ref_eq, e0, e1, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
